-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S128000x512 : Shape := ⟨2, ![128000, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S128000x512 : S_.BroadcastsInDim S128000x512 (![] : Fin 0 → Fin S128000x512.rank)
  reducesTo_S128000x512_S_d0_1 : S128000x512.ReducesTo [0, 1] S_

variable [Facts]

def fn {F : FTy → Type} [FloatOps F] (main_arg0 : FVec F S1024x512 .f32) (main_arg1 : FVec F S128000x512 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S128000x512 .f32 := Host.absf main_arg1
  let main_cst_0 : FVec F S_ .f32 := constant S_ .f32 0x7F800000#32
  let main_v5 : FVec F S128000x512 .f32 := broadcastInDim S128000x512 ![] bcast_S_S128000x512 main_cst_0
  let main_v6 : IVec S128000x512 1 := cmpf .olt main_v4 main_v5
  let main_c_1 : IVec S_ 1 := constantI S_ 1 1#1
  let main_v7 : IVec S_ 1 := (fun x v => Host.reduce IntOp.andi x v reducesTo_S128000x512_S_d0_1 h_S_) main_v6 main_c_1
  let main_v8 : IVec S_ 1 := andi main_v3 main_v7
  main_v8
-- ==== Kernel.lean ====
abbrev S1024x512 : Shape := ⟨2, ![1024, 512]⟩
abbrev S128000x512 : Shape := ⟨2, ![128000, 512]⟩
abbrev S1024 : Shape := ⟨1, ![1024]⟩
abbrev S_ : Shape := ⟨0, ![]⟩
abbrev S1024x1 : Shape := ⟨2, ![1024, 1]⟩
abbrev S1280x512 : Shape := ⟨2, ![1280, 512]⟩
abbrev S1024x1280 : Shape := ⟨2, ![1024, 1280]⟩

abbrev nBuf : Space → Nat
  | .hbm => 31
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S128000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x512, .f32⟩
  | .local _ .vmem, ⟨1, _⟩ => ⟨S1280x512, .f32⟩
  | .local _ .vmem, ⟨2, _⟩ => ⟨S1280x512, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v24 : BitVec 1 := Scalar.cmpi .eq arg0 c99_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024 : S_.BroadcastsInDim S1024 (![] : Fin 0 → Fin S1024.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1280x512_S1280x512_0_0 : ∀ a, (![0, 0] : Fin 2 → Nat) a + S1280x512.size a ≤ S1280x512.size a
  h_S1280x512 : 0 < S1280x512.numel
  broadcasts_S1024x1_S1024x1280 : S1024x1.Broadcasts S1024x1280
  reduces_S1024x1280_S1024 : S1024x1280.Reduces [1] S1024
  shapeCasts_S1024_S1024x1 : S1024.ShapeCasts S1024x1
  reducesTo_S1024x1_S_d0_1 : S1024x1.ReducesTo [0, 1] S_
  gather_S128000x512_S1024x1_S1024x512_1_0_n_n_0_1_1512_wf : GatherDims.WF S128000x512 S1024x1 S1024x512 [1] [0] [] [0] [] 1 ![1, 512]
  dot_S1024x512_S1280x512_S1024x1280_1_1_0_0_n_n_wf : DotDims.WF S1024x512 S1280x512 S1024x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S128000x512.size a
  hwx0_1 : ∀ i : grid0.Coords, EltTy.bits .f32 = 32 ∨ (Rect.block (s := S128000x512) S1280x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)

variable [Facts₀]

def gather_S128000x512_S1024x1_S1024x512_1_0_n_n_0_1_1512 : GatherDims S128000x512 S1024x1 S1024x512 where
  offsetDims := [1]
  collapsedSliceDims := [0]
  operandBatchingDims := []
  startIndicesBatchingDims := []
  startIndexMap := [0]
  indexVectorDim := 1
  sliceSizes := ![1, 512]
  wf := gather_S128000x512_S1024x1_S1024x512_1_0_n_n_0_1_1512_wf
def dot_S1024x512_S1280x512_S1024x1280_1_1_0_0_n_n : DotDims S1024x512 S1280x512 S1024x1280 where
  lhsContracting := [1]
  rhsContracting := [1]
  lhsNonContracting := [0]
  rhsNonContracting := [0]
  lhsBatch := []
  rhsBatch := []
  wf := dot_S1024x512_S1280x512_S1024x1280_1_1_0_0_n_n_wf

abbrev win0_0 : Pipeline.Window sig grid0 :=
  Pipeline.Window.ofSpec (Memref.whole main_v4) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S128000x512 : Shape := ⟨2, ![128000, 512]⟩
abbrev S1024 : Shape := ⟨1, ![1024]⟩
abbrev S_ : Shape := ⟨0, ![]⟩
abbrev S1024x1 : Shape := ⟨2, ![1024, 1]⟩
abbrev S1024x128000 : Shape := ⟨2, ![1024, 128000]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S128000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x128000, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S1024x128000, .f32⟩
  | .hbm, ⟨29, _⟩ => ⟨S1024x128000, .f32⟩
  | .hbm, ⟨30, _⟩ => ⟨S1024x128000, .f32⟩
  | .hbm, ⟨31, _⟩ => ⟨S1024x128000, .f32⟩
  | .hbm, ⟨32, _⟩ => ⟨S_, .f32⟩
  | .hbm, ⟨33, _⟩ => ⟨S1024x128000, .f32⟩
  | .hbm, ⟨34, _⟩ => ⟨S1024x128000, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024 : S_.BroadcastsInDim S1024 (![] : Fin 0 → Fin S1024.rank)
  bcast_S_S1024x128000 : S_.BroadcastsInDim S1024x128000 (![] : Fin 0 → Fin S1024x128000.rank)
  bcast_S1024x1_S1024x128000_0_1 : S1024x1.BroadcastsInDim S1024x128000 (![0, 1] : Fin 2 → Fin S1024x128000.rank)
  reducesTo_S1024x128000_S1024_d1 : S1024x128000.ReducesTo [1] S1024
  reducesTo_S1024_S_d0 : S1024.ReducesTo [0] S_
  dot_S1024x512_S128000x512_S1024x128000_1_1_0_0_n_n_wf : DotDims.WF S1024x512 S128000x512 S1024x128000 [1] [1] [0] [0] [] []
  gather_S128000x512_S1024x1_S1024x512_1_0_n_n_0_1_1512_wf : GatherDims.WF S128000x512 S1024x1 S1024x512 [1] [0] [] [0] [] 1 ![1, 512]

variable [Facts₀]

def dot_S1024x512_S128000x512_S1024x128000_1_1_0_0_n_n : DotDims S1024x512 S128000x512 S1024x128000 where
  lhsContracting := [1]
  rhsContracting := [1]
  lhsNonContracting := [0]
  rhsNonContracting := [0]
  lhsBatch := []
  rhsBatch := []
  wf := dot_S1024x512_S128000x512_S1024x128000_1_1_0_0_n_n_wf
def gather_S128000x512_S1024x1_S1024x512_1_0_n_n_0_1_1512 : GatherDims S128000x512 S1024x1 S1024x512 where
  offsetDims := [1]
  collapsedSliceDims := [0]
  operandBatchingDims := []
  startIndicesBatchingDims := []
  startIndexMap := [0]
  indexVectorDim := 1
  sliceSizes := ![1, 512]
  wf := gather_S128000x512_S1024x1_S1024x512_1_0_n_n_0_1_1512_wf

class Facts : Prop extends Facts₀ where

variable [Facts]
-- ==== Proof.Pieces.lean ====
/-
  What one run of the kernel body leaves behind, case by case, as VALUES.
  The body keeps a running total in a scratch column: at the first grid point it stores the zero column, reads it
  back and stores `0 + (the tile's hinge sums)`; at every later point it reads the column the point before left
  and stores that plus the tile's hinge sums; at the last point it also copies the column, after the update, into
  the output block. In each case what the scratch (and, at the last point, the output) ends holding is the body's one
  arithmetic term `k0_pay2` of the three input blocks and of the column it started from.
-/
import proofs.«122863_j48730698940765_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point that is not the last: the scratch column ends at the body's term over the column it found. -/
theorem scratch_B (c : Dev nD) (i : grid0.Coords) (a1 : Memref sig .tc .vmem S1024x512 .f32) (h1 : a1.IsWhole) (a2 : Memref sig .tc .vmem S1280x512 .f32) (h2 : a2.IsWhole) (a3 : Memref sig .tc .vmem S1024x1 .f32) (h3 : a3.IsWhole) (a4 : Memref sig .tc .vmem S1024x1 .f32) (h4 : a4.IsWhole) (a5 : Memref sig .tc .vmem S1024x1 .f32) (h5 : a5.IsWhole) (hc0 : ¬cond0_0 i) (hc1 : ¬cond0_1 i)
    (x0 : Vec F S1024x512 .f32) (x1 : Vec F S1280x512 .f32) (x2 : Vec F S1024x1 .f32) (xs0 : Vec F S1024x1 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  rw [View.canon_unit_zero hz]
  simp only [View.readAt_eq_ld, h1.read_unread, h2.read_unread, h3.read_unread, h4.read_unread, h5.read_unread, View.ld_unit_zero (S := S1024x512) hz, View.ld_unit_zero (S := S1280x512) hz, View.ld_unit_zero (S := S1024x1) hz, View.readCov_unit_zero (S := S1024x1) _ hz]

/-- The last point: the scratch column ends at the body's term over the column it found; -/
theorem scratch_C (c : Dev nD) (i : grid0.Coords) (a1 : Memref sig .tc .vmem S1024x512 .f32) (h1 : a1.IsWhole) (a2 : Memref sig .tc .vmem S1280x512 .f32) (h2 : a2.IsWhole) (a3 : Memref sig .tc .vmem S1024x1 .f32) (h3 : a3.IsWhole) (a4 : Memref sig .tc .vmem S1024x1 .f32) (h4 : a4.IsWhole) (a5 : Memref sig .tc .vmem S1024x1 .f32) (h5 : a5.IsWhole) (hc0 : ¬cond0_0 i) (hc1 : cond0_1 i)
    (x0 : Vec F S1024x512 .f32) (x1 : Vec F S1280x512 .f32) (x2 : Vec F S1024x1 .f32) (xs0 : Vec F S1024x1 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h4.read_unread, h5.read_unread, View.ld_unit_zero (S := S1024x512) hz, View.ld_unit_zero (S := S1280x512) hz, View.ld_unit_zero (S := S1024x1) hz, View.readCov_unit_zero (S := S1024x1) _ hz]

/-- and the output block, a copy of the scratch column made after the update, holds the same. -/
theorem out_C (c : Dev nD) (i : grid0.Coords) (a1 : Memref sig .tc .vmem S1024x512 .f32) (h1 : a1.IsWhole) (a2 : Memref sig .tc .vmem S1280x512 .f32) (h2 : a2.IsWhole) (a3 : Memref sig .tc .vmem S1024x1 .f32) (h3 : a3.IsWhole) (a4 : Memref sig .tc .vmem S1024x1 .f32) (h4 : a4.IsWhole) (a5 : Memref sig .tc .vmem S1024x1 .f32) (h5 : a5.IsWhole) (hc0 : ¬cond0_0 i) (hc1 : cond0_1 i)
    (x0 : Vec F S1024x512 .f32) (x1 : Vec F S1280x512 .f32) (x2 : Vec F S1024x1 .f32) (xs0 : Vec F S1024x1 .f32) :
    out0_C_3 c i a1 h1 a2 h2 a3 h3 a4 h4 a5 h5 hc0 hc1 x0 x1 x2 xs0 = k0_pay2 x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h4.read_unread, h5.read_unread, View.ld_unit_zero (S := S1024x512) hz, View.ld_unit_zero (S := S1280x512) hz, View.ld_unit_zero (S := S1024x1) hz, View.readCov_unit_zero (S := S1024x1) _ hz]

/-- The first point: the zero column is stored, read back, and the scratch column ends at the body's term over it. -/
theorem scratch_A (c : Dev nD) (i : grid0.Coords) (a1 : Memref sig .tc .vmem S1024x512 .f32) (h1 : a1.IsWhole) (a2 : Memref sig .tc .vmem S1280x512 .f32) (h2 : a2.IsWhole) (a3 : Memref sig .tc .vmem S1024x1 .f32) (h3 : a3.IsWhole) (a4 : Memref sig .tc .vmem S1024x1 .f32) (h4 : a4.IsWhole) (a5 : Memref sig .tc .vmem S1024x1 .f32) (h5 : a5.IsWhole) (hc0 : cond0_0 i) (hc1 : ¬cond0_1 i)
    (x0 : Vec F S1024x512 .f32) (x1 : Vec F S1280x512 .f32) (x2 : Vec F S1024x1 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1024x1) hz, View.readCov_unit_zero (S := S1024x1) _ hz]
  simp only [View.readAt_eq_ld, h1.read_unread, h2.read_unread, h3.read_unread, h4.read_unread, h5.read_unread, View.ld_unit_zero (S := S1024x512) hz, View.ld_unit_zero (S := S1280x512) hz, View.ld_unit_zero (S := S1024x1) hz, View.readCov_unit_zero (S := S1024x1) _ hz]

end Cert.KernelIdeal.Pieces

end
-- ==== Proof.HingeSum.lean ====
/-
  The arithmetic behind the margin-ranking sum, over the extended reals and with no program in sight.

  * `hinge_regroup`: the kernel adds the margin after subtracting the true-class score, `(s - n) + c`; the reference
    adds the margin first and subtracts afterwards, `(c + s) - n`. Subtraction on the extended reals is addition of
    the negative, and addition is commutative and associative there, infinities included, so the two are equal for
    every `s`, `n`, `c`: no finiteness is needed.
  * `sum_tiles`: a sum over the 128000 vocabulary rows is the sum over 100 tiles of the sums over the 1280 rows of
    each tile (row `1280 * t + j` is row `j` of tile `t`): a re-indexing of a finite sum in a commutative monoid.
  * `sum_range_of_chain`: a running total that starts at `0 + r 0` and adds `r (n + 1)` at step `n + 1` is the
    sum of `r` over the first `n + 1` naturals.
-/
import Mathlib.Data.EReal.Operations
import Mathlib.Algebra.BigOperators.Fin
import Mathlib.Logic.Equiv.Fin.Basic

open scoped BigOperators

namespace Cert.Hinge

/-- The margin may be added before or after the true-class score is subtracted. -/
theorem hinge_regroup (s n c : EReal) : max ((s - n) + c) 0 = max ((c + s) - n) 0 := by
  rw [sub_eq_add_neg, sub_eq_add_neg, add_right_comm, add_comm s c]

/-- Row `1280 * t + j` of the vocabulary, as a row index below 128000. -/
def vrow (t : Fin 100) (j : Fin 1280) : Fin 128000 := ⟨1280 * t.val + j.val, by have := t.isLt; have := j.isLt; omega⟩

/-- The 100 tiles of 1280 rows are the 128000 rows, each once. -/
def tileEquiv : Fin 100 × Fin 1280 ≃ Fin 128000 where
  toFun p := vrow p.1 p.2
  invFun v := (⟨v.val / 1280, by have := v.isLt; omega⟩, ⟨v.val % 1280, Nat.mod_lt _ (by norm_num)⟩)
  left_inv p := by
    obtain ⟨t, j⟩ := p
    have ht := t.isLt
    have hj := j.isLt
    apply Prod.ext
    · apply Fin.ext; show (1280 * t.val + j.val) / 1280 = t.val; omega
    · apply Fin.ext; show (1280 * t.val + j.val) % 1280 = j.val; omega
  right_inv v := by
    apply Fin.ext
    show 1280 * (v.val / 1280) + v.val % 1280 = v.val
    omega

/-- A sum over the vocabulary, tile by tile. -/
theorem sum_tiles {M : Type*} [AddCommMonoid M] (g : Fin 128000 → M) :
    ∑ t : Fin 100, ∑ j : Fin 1280, g (vrow t j) = ∑ v : Fin 128000, g v := by
  rw [← Fintype.sum_prod_type']
  exact Fintype.sum_equiv tileEquiv (fun p => g (vrow p.1 p.2)) g (fun _ => rfl)

/-- A running total `0 + r 0`, then `+ r (n + 1)`, is the sum of `r` over the first `n + 1` naturals. -/
theorem sum_range_succ_chain {M : Type*} [AddCommMonoid M] (r : ℕ → M) (acc : ℕ → M)
    (h0 : acc 0 = 0 + r 0) (hs : ∀ n, acc (n + 1) = acc n + r (n + 1)) (n : ℕ) :
    acc n = ∑ t ∈ Finset.range (n + 1), r t := by
  induction n with
  | zero => rw [h0, zero_add, Finset.sum_range_one]
  | succ n ih => rw [hs, ih, Finset.sum_range_succ _ (n + 1)]

end Cert.Hinge
-- ==== Proof.Blocks.lean ====
/-
  The three input blocks the body is handed at a grid point, as functions of the arrays the region finds.
  The normalized inputs and the column of true-class scores are each one block, the whole array, at every point
  (their block index is always zero). The embedding table is walked tile by tile: at point `t` the block is rows
  `1280 t` to `1280 t + 1279` of the table, all 512 columns — an element `(j, d)` of the block is element
  `(1280 t + j, d)` of the table.
-/
import proofs.«122863_j48730698940765_1_alg».proof.Proof.Gen.KernelIdeal.Frame
import proofs.«122863_j48730698940765_1_alg».proof.Proof.HingeSum
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.Hinge

variable {F : FTy → Type} [FloatOps F]
variable (m : (ℓ : Loc nD τ sig) → Buf (Elt F) ℓ)

/-- The three arrays as the region finds them: the normalized inputs, the table, the true-class scores. -/
abbrev xarr (c : Dev nD) : Vec F S1024x512 .f32 := V m c main_v4
abbrev warr (c : Dev nD) : Vec F S128000x512 .f32 := V m c main_arg1
abbrev narr (c : Dev nD) : Vec F S1024x1 .f32 := V m c main_v14

/-- The blocks of them the body is handed at point `t`. -/
abbrev xblk (c : Dev nD) (t : Fin cfg0.N) : Vec F S1024x512 .f32 := iblk m c 0 t
abbrev wblk (c : Dev nD) (t : Fin cfg0.N) : Vec F S1280x512 .f32 := iblk m c 1 t
abbrev nblk (c : Dev nD) (t : Fin cfg0.N) : Vec F S1024x1 .f32 := iblk m c 2 t

/-- The grid point as a tile number below 100. -/
abbrev tileOf (t : Fin cfg0.N) : Fin 100 := Fin.cast N_0 t

/-- The printed index maps over the grid: only the table's block index moves, and it is the point's number. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The inputs' block is the whole array of normalized inputs. -/
theorem xblk_eq (c : Dev nD) (t : Fin cfg0.N) : xblk m c t = xarr m c := by
  obtain ⟨e0, e1, -⟩ := idx_facts t
  funext y
  show V m c main_v4 (((cfg0.win 0).blk t).view.emb y) = V m c main_v4 y
  refine congrArg _ (funext fun a => Fin.ext ?_)
  match a with
  | ⟨0, _⟩ => show win0_0.index t (0 : Fin 2) * 1024 + 1 * (y 0).val = (y 0).val; rw [e0]; omega
  | ⟨1, _⟩ => show win0_0.index t (1 : Fin 2) * 512 + 1 * (y 1).val = (y 1).val; rw [e1]; omega

/-- The scores' block is the whole column. -/
theorem nblk_eq (c : Dev nD) (t : Fin cfg0.N) : nblk m c t = narr m c := by
  obtain ⟨-, -, -, -, e0, e1, -⟩ := idx_facts t
  funext y
  show V m c main_v14 (((cfg0.win 2).blk t).view.emb y) = V m c main_v14 y
  refine congrArg _ (funext fun a => Fin.ext ?_)
  match a with
  | ⟨0, _⟩ => show win0_2.index t (0 : Fin 2) * 1024 + 1 * (y 0).val = (y 0).val; rw [e0]; omega
  | ⟨1, _⟩ => show win0_2.index t (1 : Fin 2) * 1 + 1 * (y 1).val = (y 1).val; rw [e1]; omega

/-- The table's block at point `t` is tile `t`: element `(j, d)` is the table's `(1280 t + j, d)`. -/
theorem wblk_eq (c : Dev nD) (t : Fin cfg0.N) :
    wblk m c t = fun i : S1280x512.Idx => warr m c (ix2 (vrow (tileOf t) (i 0)) (i 1)) := by
  obtain ⟨-, -, e0, e1, -⟩ := idx_facts t
  funext y
  show V m c main_arg1 (((cfg0.win 1).blk t).view.emb y) = V m c main_arg1 (ix2 (vrow (tileOf t) (y 0)) (y 1))
  refine congrArg _ (funext fun a => Fin.ext ?_)
  match a with
  | ⟨0, _⟩ => show win0_1.index t (0 : Fin 2) * 1280 + 1 * (y 0).val = 1280 * t.val + (y 0).val; rw [e0]; omega
  | ⟨1, _⟩ => show win0_1.index t (1 : Fin 2) * 512 + 1 * (y 1).val = (y 1).val; rw [e1]; omega

end Cert.KernelIdeal.Blocks

end
-- ==== Proof.Spec.lean ====
/-
  The margin-ranking loss as ONE function of three arrays, over the extended reals:
  the normalized inputs `X` (1024 × 512), the embedding table `W` (128000 × 512) and the true-class scores `N`
  (1024 × 1). Row `b` of the loss is the sum, over the 128000 vocabulary rows `v`, of the hinge
  `max ((⟨X b, W v⟩ - N b) + margin) 0`; the result is the sum of the rows' losses divided by 1024.
  The same row loss is also the sum over 100 tiles of 1280 vocabulary rows of the tile's own hinge sum
  (`rowLoss_eq_tiles`), which is how a kernel that walks the table tile by tile accumulates it.
-/
import Idealize.ShloMosaic.PureOps.Ideal.Laws
import Idealize.ShloMosaic.Lib.ValueIdx
import proofs.«122863_j48730698940765_1_alg».proof.Proof.HingeSum

noncomputable section

open scoped BigOperators

namespace Cert.Spec

open Idealize.ShloMosaic Idealize.ShloMosaic.ValueIdx Cert.Hinge

/-- The shapes, spelt literally. -/
abbrev SX : Shape := ⟨2, ![1024, 512]⟩
abbrev SW : Shape := ⟨2, ![128000, 512]⟩
abbrev SWt : Shape := ⟨2, ![1280, 512]⟩
abbrev SN : Shape := ⟨2, ![1024, 1]⟩

/-- The margin: the binary32 nearest 0.1, the same word in both programs, never evaluated. -/
abbrev margin : EReal := Ideal.ofBits .f32 0x3DCCCCCD#32

/-- The score of input row `b` against a table row: their inner product over the 512 features. -/
def score {R : ℕ} (X : SX.Idx → EReal) (W : (⟨2, ![R, 512]⟩ : Shape).Idx → EReal) (b : Fin 1024) (v : Fin R) : EReal :=
  ∑ d : Fin 512, X (ix2 b d) * W (ix2 v d)

/-- The hinge of one score against the row's true-class score. -/
def hinge (s n : EReal) : EReal := max ((s - n) + margin) 0

/-- One tile's share of row `b`'s loss: the hinges of the tile's 1280 rows, summed. -/
def tileLoss (X : SX.Idx → EReal) (Wt : SWt.Idx → EReal) (N : SN.Idx → EReal) (b : Fin 1024) : EReal :=
  ∑ j : Fin 1280, hinge (score X Wt b j) (N (ix2 b 0))

/-- Row `b`'s loss: the hinges of all 128000 rows, summed. -/
def rowLoss (X : SX.Idx → EReal) (W : SW.Idx → EReal) (N : SN.Idx → EReal) (b : Fin 1024) : EReal :=
  ∑ v : Fin 128000, hinge (score X W b v) (N (ix2 b 0))

/-- Tile `t` of the table: rows `1280 t` to `1280 t + 1279`. -/
def tile (W : SW.Idx → EReal) (t : Fin 100) : SWt.Idx → EReal := fun i => W (ix2 (vrow t (i 0)) (i 1))

theorem tile_apply (W : SW.Idx → EReal) (t : Fin 100) (j : Fin 1280) (d : Fin 512) :
    tile W t (ix2 j d) = W (ix2 (vrow t j) d) := rfl

/-- The row loss, tile by tile. -/
theorem rowLoss_eq_tiles (X : SX.Idx → EReal) (W : SW.Idx → EReal) (N : SN.Idx → EReal) (b : Fin 1024) :
    rowLoss X W N b = ∑ t : Fin 100, tileLoss X (tile W t) N b := by
  unfold rowLoss tileLoss
  rw [← sum_tiles (fun v => hinge (score X W b v) (N (ix2 b 0)))]
  rfl

/-- The whole loss: the rows' losses summed from the zero word, divided by the word of 1024. -/
def meanLoss (X : SX.Idx → EReal) (W : SW.Idx → EReal) (N : SN.Idx → EReal) : EReal :=
  Ideal.div (Ideal.ofBits .f32 0x00000000#32 + ∑ b : Fin 1024, rowLoss X W N b) (Ideal.ofBits .f32 0x44800000#32)

end Cert.Spec

end
-- ==== Proof.LibMatmulNT.lean ====
/-
  A matrix product whose two operands are both contracted along their columns (an `R × K` matrix against an `N × K`
  matrix: every row of the left against every row of the right, the product `A · Bᵀ` with no transpose spelt), into a
  zero accumulator, read at an index at the ideal instance: the entry at `(r, j)` is the sum over `k` of row `r` of the
  left operand against row `j` of the right. Stated for any numbers of rows and any contraction length.
-/
import Idealize.ShloMosaic.PureOps.Ideal.Laws
import Idealize.ShloMosaic.Lib.ValueIdx

noncomputable section

open scoped BigOperators

namespace Cert.MatmulNT

open Idealize.ShloMosaic Idealize.ShloMosaic.ValueIdx

variable {R N K : ℕ} {φ₁ φ₂ : FTy}

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- The left operand's free axis is its rows, and they are the result's rows: the left index's row is the result
    index's row, whatever the contraction position. -/
theorem lhsIdx_row (d : DotDims ⟨2, ![R, K]⟩ ⟨2, ![N, K]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- The right operand's free axis is its rows too, and they are the result's columns: the right index's row is the
    result index's column, whatever the contraction position. -/
theorem rhsIdx_row (d : DotDims ⟨2, ![R, K]⟩ ⟨2, ![N, K]⟩ ⟨2, ![R, N]⟩)
    (hln : d.lhsNonContracting = [(0 : Fin 2)]) (hrn : d.rhsNonContracting = [(0 : Fin 2)])
    (hlb : d.lhsBatch = []) (hrb : d.rhsBatch = [])
    (j : (⟨2, ![R, N]⟩ : Shape).Idx) (q : d.contr.Idx) : (d.rhsIdx j q (0 : Fin 2)).val = (j (1 : Fin 2)).val := by
  have hnb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- `A · Bᵀ` into the zero accumulator, read at `(r, j)`: the sum over `k` of `A (r, k) · B (j, k)`. -/
theorem matmul_nt_apply (d : DotDims ⟨2, ![R, K]⟩ ⟨2, ![N, K]⟩ ⟨2, ![R, N]⟩)
    (hlc : d.lhsContracting = [(1 : Fin 2)]) (hrc : d.rhsContracting = [(1 : Fin 2)])
    (hln : d.lhsNonContracting = [(0 : Fin 2)]) (hrn : d.rhsNonContracting = [(0 : Fin 2)])
    (hlb : d.lhsBatch = []) (hrb : d.rhsBatch = [])
    (prec : Option ContractPrecision) (lhs : FVec Ideal ⟨2, ![R, K]⟩ φ₁) (rhs : FVec Ideal ⟨2, ![N, K]⟩ φ₂)
    (r : Fin R) (j : Fin N) :
    FloatOps.matmul d prec lhs rhs (constant ⟨2, ![R, N]⟩ .f32 0x00000000#32) (ix2 r j)
      = ∑ k : Fin K, lhs (ix2 r k) * rhs (ix2 j k) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 j k :=
    eq_ix2_of_val _ j k (rhsIdx_row d hln hrn hlb hrb _ _)
      ((d.rhsIdx_val_of_single hrc _ _).trans (contrEquiv1_symm_val d K hr hs k))
  show lhs (d.lhsIdx (ix2 r j) ((contrEquiv1 d K hr hs).symm k)) * rhs (d.rhsIdx (ix2 r j) ((contrEquiv1 d K hr hs).symm k)) = _
  rw [hL, hR]

end Cert.MatmulNT

end
-- ==== Proof.Payload.lean ====
/-
  The body's arithmetic read at one entry, at the ideal instance.
  `k0_pay2 x w n a` is the column the body stores: entry `(b, 0)` is `a (b, 0)` plus the sum over the tile's
  1280 rows `j` of `max ((⟨x b, w j⟩ - n (b, 0)) + margin) 0`: the two narrowings to bf16 are the identity on the
  extended reals, the matrix product into the zero accumulator is the inner product of row `b` of `x` with row `j`
  of `w` (both contracted along their columns), the broadcast of the column `n` along the row reads `n (b, 0)`,
  and the lane reduction is the sum over `j`.
  `k0_pay1` is the zero column the first grid point stores.
-/
import proofs.«122863_j48730698940765_1_alg».proof.Proof.Gen.KernelIdeal.Skeleton
import proofs.«122863_j48730698940765_1_alg».proof.Proof.Spec
import proofs.«122863_j48730698940765_1_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Spec

variable {α : Type}

/-- A vector of length `a` read as a column: entry `(i, u)` of the `[a, 1]` array is entry `i` of the vector, the two
    having the same row-major position `i` (the unit coordinate `u` is `0`). -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have hu := u.isLt
    omega)

/-- A column broadcast along the rows: entry `(p, c)` of the `[a, b]` array is entry `(p, 0)` of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have hp := p.isLt; omega
    · rfl
  | ⟨1, _⟩ => rfl

/-- The lane reduction of a `1024 × 1280` array from the zero word: entry `b` is the sum of row `b` (the source index
    over `b` with `j` put on the reduced axis is `(b, j)`). -/
theorem rowSum_apply (src : FVec Ideal S1024x1280 .f32) (h : S1024x1280.Reduces [1] S1024) (hφ : FKind.Formats .f32)
    (hacc : (0x00000000#32 : BitVec 32) = FKind.add.neutral .f32 hφ) (b : Fin 1024) :
    multiReduction .add [1] S1024 src 0x00000000#32 h hφ hacc (ix1 b) = ∑ j : Fin 1280, src (ix2 b j) := by
  refine (Ideal.multiReduction_add_single src 0x00000000#32 h hφ hacc (ix1 b)).trans ?_
  show ∑ j : Fin 1280, src (h.lift (ix1 b) j) = ∑ j : Fin 1280, src (ix2 b j)
  exact Finset.sum_congr rfl fun j _ => congrArg src (Cert.MatmulNT.eq_ix2_of_val _ b j rfl rfl)

/-- The matrix product of the narrowed operands into the zero accumulator, read at `(b, j)`: the score of input row `b`
    against table row `j` (the narrowings and the identity cast read through at every entry). -/
theorem score_entry (x : FVec Ideal S1024x512 .f32) (w : FVec Ideal S1280x512 .f32)
    (hx : S1024x512.ShapeCasts S1024x512) (ht : FTy.bits .bf16 < FTy.bits .f32) (b : Fin 1024) (j : Fin 1280) :
    matmul dot_S1024x512_S1280x512_S1024x1280_1_1_0_0_n_n none
        (truncf .bf16 (shapeCast S1024x512 x hx) ht) (truncf .bf16 w ht)
        (constant (F := Ideal) S1024x1280 .f32 0x00000000#32) (ix2 b j)
      = score x w b j := by
  refine (Cert.MatmulNT.matmul_nt_apply dot_S1024x512_S1280x512_S1024x1280_1_1_0_0_n_n rfl rfl rfl rfl rfl rfl none
    (truncf .bf16 (shapeCast S1024x512 x hx) ht) (truncf .bf16 w ht) b j).trans ?_
  unfold score
  refine Finset.sum_congr rfl fun k _ => ?_
  rw [truncf_apply, truncf_apply, shapeCast_self]

/-- The true-class column, cast to itself and broadcast along the rows, read at `(b, j)`: its entry `(b, 0)`. -/
theorem col_entry (n : FVec Ideal S1024x1 .f32) (hn : S1024x1.ShapeCasts S1024x1)
    (hb : S1024x1.Broadcasts S1024x1280) (b : Fin 1024) (j : Fin 1280) :
    broadcastTo S1024x1280 (shapeCast S1024x1 n hn) hb (ix2 b j) = n (ix2 b 0) :=
  (broadcastTo_a1_ab_apply _ hb b j).trans (congrFun (shapeCast_self n hn) _)

/-- The zero column. -/
theorem pay1_apply (i : S1024x1.Idx) : (k0_pay1 (F := Ideal)) i = 0 := by
  unfold k0_pay1
  rw [shapeCast_self, broadcast_apply]
  exact Ideal.ofBits_zero_f32

/-- The stored column at entry `(b, q)`: what was there plus the tile's hinge sum for row `b`. -/
theorem pay2_apply (x : Vec Ideal S1024x512 .f32) (w : Vec Ideal S1280x512 .f32) (n a : Vec Ideal S1024x1 .f32)
    (b : Fin 1024) (q : Fin 1) :
    k0_pay2 (F := Ideal) x w n a (ix2 b q) = a (ix2 b q) + tileLoss x w n b := by
  unfold k0_pay2
  dsimp only
  -- the outer cast is the identity; the sum of the two columns reads entrywise
  refine (congrFun (shapeCast_self _ _) (ix2 b q)).trans ?_
  refine (addf_apply _ _ _).trans (congrArg (a (ix2 b q) + ·) ?_)
  -- the column cast reads the reduced vector at `b`, which is the sum of row `b`
  refine (shapeCast_a_a1_apply _ _ b q).trans ?_
  refine (rowSum_apply _ _ _ _ b).trans ?_
  unfold tileLoss
  refine Finset.sum_congr rfl fun j _ => ?_
  -- one entry of the row: the hinge of the score against the true-class score
  rw [maximumf_apply, addf_apply, subf_apply, broadcast_apply, broadcast_apply,
    score_entry x w _ _ b j, col_entry n _ _ b j, Ideal.ofBits_def, Ideal.ofBits_def, Ideal.ofBits_zero_f32]
  rfl

end Cert.KernelIdeal.Payload

end
-- ==== Proof.Accum.lean ====
/-
  The running total across the grid, at the ideal instance.
  After the body at grid point `n` the scratch column holds, at row `b`, the sum of the first `n + 1` tiles'
  hinge sums for that row: the first point stores `0 + (tile 0's sum)`, every later point adds its own tile's sum
  to what the point before left. By induction on the point — never by listing the hundred points. At the last
  point the output block is a copy of the column, so it holds the sum over all hundred tiles, which is the row's
  loss over the whole table.
-/
import proofs.«122863_j48730698940765_1_alg».proof.Proof.Pieces
import proofs.«122863_j48730698940765_1_alg».proof.Proof.Blocks
import proofs.«122863_j48730698940765_1_alg».proof.Proof.Payload
import proofs.«122863_j48730698940765_1_alg».proof.Proof.Spec

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.Hinge Cert.Spec
open Cert.KernelIdeal.Pieces Cert.KernelIdeal.Blocks Cert.KernelIdeal.Payload

variable (m : (ℓ : Loc nD τ sig) → Buf (Elt Ideal) ℓ)

/-- Tile `t`'s hinge sum for row `b`, over the arrays the region finds; zero past the last tile. -/
def share (c : Dev nD) (b : Fin 1024) (t : ℕ) : EReal :=
  if h : t < 100 then tileLoss (xarr m c) (tile (warr m c) ⟨t, h⟩) (narr m c) b else 0

/-- The hinge sum of the blocks the body is handed at point `t` is tile `t`'s share. -/
theorem tileLoss_blocks (c : Dev nD) (t : Fin cfg0.N) (b : Fin 1024) :
    tileLoss (xblk m c t) (wblk m c t) (nblk m c t) b = share m c b t.val := by
  have hN : cfg0.N = 100 := N_0
  have ht : t.val < 100 := lt_of_lt_of_eq t.isLt hN
  rw [xblk_eq, nblk_eq, wblk_eq]
  unfold share
  rw [dif_pos ht]
  rfl

/-- One step at a point that is not the first: the scratch column is what the point before left plus the point's tile's share. -/
theorem scratch_step (c : Dev nD) (n : ℕ) (hn : n + 1 < cfg0.N) (b : Fin 1024) (q : Fin 1) :
    (outsAt0 m c (n + 1) hn).2 (ix2 b q)
      = (outsAt0 m c n (Nat.lt_of_succ_lt hn)).2 (ix2 b q) + share m c b (n + 1) := by
  have hN : cfg0.N = 100 := N_0
  have h0 : ¬(⟨n + 1, hn⟩ : Fin cfg0.N).val % 100 = 0 := by dsimp only; omega
  rw [← tileLoss_blocks m c ⟨n + 1, hn⟩ b]
  by_cases h1 : (⟨n + 1, hn⟩ : Fin cfg0.N).val % 100 = 99
  · rw [outsAt0_C m c ⟨n + 1, hn⟩ h0 h1]
    dsimp only
    refine (congrFun (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (xblk m c ⟨n + 1, hn⟩) (wblk m c ⟨n + 1, hn⟩) (nblk m c ⟨n + 1, hn⟩) (outsAt0 m c n (Nat.lt_of_succ_lt hn)).2) (ix2 b q)).trans ?_
    exact pay2_apply (xblk m c ⟨n + 1, hn⟩) (wblk m c ⟨n + 1, hn⟩) (nblk m c ⟨n + 1, hn⟩) (outsAt0 m c n (Nat.lt_of_succ_lt hn)).2 b q
  · rw [outsAt0_B m c ⟨n + 1, hn⟩ h0 h1]
    dsimp only
    refine (congrFun (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (xblk m c ⟨n + 1, hn⟩) (wblk m c ⟨n + 1, hn⟩) (nblk m c ⟨n + 1, hn⟩) (outsAt0 m c n (Nat.lt_of_succ_lt hn)).2) (ix2 b q)).trans ?_
    exact pay2_apply (xblk m c ⟨n + 1, hn⟩) (wblk m c ⟨n + 1, hn⟩) (nblk m c ⟨n + 1, hn⟩) (outsAt0 m c n (Nat.lt_of_succ_lt hn)).2 b q

/-- The first point: the scratch column is `0 +` tile 0's share. -/
theorem scratch_zero (c : Dev nD) (hn : 0 < cfg0.N) (b : Fin 1024) (q : Fin 1) :
    (outsAt0 m c 0 hn).2 (ix2 b q) = 0 + share m c b 0 := by
  rw [← tileLoss_blocks m c ⟨0, hn⟩ b]
  rw [outsAt0_A m c ⟨0, hn⟩ rfl (by show ¬(0 % 100 = 99); decide)]
  dsimp only
  refine (congrFun (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (by decide : ¬(0 % 100 = 99)) ((hcond0_1 ⟨0, hn⟩).mp h)) (xblk m c ⟨0, hn⟩) (wblk m c ⟨0, hn⟩) (nblk m c ⟨0, hn⟩)) (ix2 b q)).trans ?_
  refine (pay2_apply (xblk m c ⟨0, hn⟩) (wblk m c ⟨0, hn⟩) (nblk m c ⟨0, hn⟩) (k0_pay1 (F := Ideal)) b q).trans ?_
  rw [pay1_apply]

/-- The scratch column after point `n`: the first `n + 1` tiles' shares, summed. -/
theorem scratch_at (c : Dev nD) (b : Fin 1024) (q : Fin 1) : ∀ (n : ℕ) (hn : n < cfg0.N),
    (outsAt0 m c n hn).2 (ix2 b q) = ∑ t ∈ Finset.range (n + 1), share m c b t
  | 0, hn => by rw [scratch_zero m c hn b q, zero_add, Finset.sum_range_one]
  | n + 1, hn => by
    rw [scratch_step m c n hn b q, scratch_at c b q n (Nat.lt_of_succ_lt hn), Finset.sum_range_succ _ (n + 1)]

/-- All hundred shares are the row's loss over the whole table. -/
theorem sum_shares (c : Dev nD) (b : Fin 1024) :
    ∑ t ∈ Finset.range 100, share m c b t = rowLoss (xarr m c) (warr m c) (narr m c) b := by
  rw [rowLoss_eq_tiles, Finset.sum_range]
  refine Finset.sum_congr rfl fun t _ => ?_
  unfold share
  rw [dif_pos t.isLt]

/-- The output block after the last point (the point numbered 99) holds each row's loss over the whole table. -/
theorem out_last (c : Dev nD) (t : Fin cfg0.N) (h99 : t.val = 99) (b : Fin 1024) (q : Fin 1) :
    (outsAt0 m c t.val t.isLt).1 (ix2 b q) = rowLoss (xarr m c) (warr m c) (narr m c) b := by
  have h0 : ¬t.val % 100 = 0 := by omega
  have h1 : t.val % 100 = 99 := by omega
  have hs := scratch_at m c b q t.val t.isLt
  have e : Finset.range (t.val + 1) = Finset.range 100 := by rw [h99]
  rw [e, sum_shares] at hs
  rw [← hs, outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (nblk m c t) (outsAt0 m c (t.val - 1) (Nat.lt_of_le_of_lt (Nat.sub_le _ _) t.isLt)).2) (ix2 b q)).trans ?_
  exact (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (nblk m c t) (outsAt0 m c (t.val - 1) (Nat.lt_of_le_of_lt (Nat.sub_le _ _) t.isLt)).2) (ix2 b q)).symm

end Cert.KernelIdeal.Accum

end
-- ==== Proof.KValue.lean ====
/-
  What the kernel's program returns, at the ideal instance.
  The output array is written back once, after the last grid point, and its one block is the whole array: so after
  the region the array holds, at row `b`, the row's loss over the whole table (`Accum.out_last`). The two host
  lines after the region sum the 1024 rows from the zero word and divide by the word of 1024: the program's result
  is `Cert.Spec.meanLoss` of the normalized inputs, the table and the true-class scores as the region finds them.
-/
import proofs.«122863_j48730698940765_1_alg».proof.Proof.Accum
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.Hinge Cert.Spec
open Cert.KernelIdeal.Blocks Cert.KernelIdeal.Accum

variable (m : (ℓ : Loc nD τ sig) → Buf (Elt Ideal) ℓ) (ρ : Dev nD → PrngReg)

/-- The output array after the region: each row's loss over the whole table. -/
def outArr (c : Dev nD) : Vec Ideal S1024x1 .f32 := fun i => rowLoss (xarr m c) (warr m c) (narr m c) (i 0)

/-- The output block after the last point is that array. -/
theorem out_last_eq (c : Dev nD) (t : Fin cfg0.N) (h99 : t.val = 99) :
    (outsAt0 m c t.val t.isLt).1 = outArr m c := by
  funext i
  obtain ⟨b, q, rfl⟩ : ∃ (b : Fin 1024) (q : Fin 1), i = ix2 b q := ⟨i 0, i 1, eq_ix2 i⟩
  exact out_last m c t h99 b q

/-- The one write-back, after the last point, writes it: the block at zero offsets is the whole array. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 100 := N_0
  have h99 : t.val = 99 := by have := (flush0_3 t).mp hf; have := t.isLt; omega
  show (cfg0.win 3).cut (grid0.coords t) ((dats m 0 c).after 3 t) = _
  rw [after0_3, out_last_eq m c t h99]
  obtain ⟨-, -, -, -, -, -, e0, e1⟩ := idx_facts t
  have hz' : (fun a => win0_3.index t a * main_v15.ty.shape.size a) = fun _ => 0 := funext fun a => by
    match a with
    | ⟨0, _⟩ => show win0_3.index t (0 : Fin 2) * 1024 = 0; rw [e0]
    | ⟨1, _⟩ => show win0_3.index t (1 : Fin 2) * 1 = 0; rw [e1]
  exact (Memref.read_access_unit_zero (Elt Ideal) main_v15 hz' (fun a => by rw [congrFun hz' a]; simp) (outArr m c)).symm

/-- An index of the output array is in point `t`'s block iff each coordinate is in the block's range on its axis. -/
theorem mem_blk (t : Fin cfg0.N) (i : S1024x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v15).slice (win0_3.rect t)).set ↔ _
  rw [View.set_slice_whole, Rect.mem_set_unit]
  exact Iff.rfl

/-- The last grid point. -/
abbrev tLast : Fin cfg0.N := ⟨99, by rw [show cfg0.N = 100 from N_0]; decide⟩

/-- The output array after the region. -/
theorem final_out (c : Dev nD) : (dats m 0 c).arrAt 3 cfg0.N = outArr m c :=
  (dats m 0 c).arrAt_eq_of_cover 3 (outArr m c) (flushed_eq m c) fun i =>
    ⟨tLast, (flush0_3 tLast).mpr (by decide), by
      rw [mem_blk]
      obtain ⟨-, -, -, -, -, -, e0, e1⟩ := idx_facts tLast
      have h0 : (i 0).val < 1024 := (i 0).isLt
      have h1 : (i 1).val < 1 := (i 1).isLt
      intro a
      match a with
      | ⟨0, _⟩ => show win0_3.index tLast (0 : Fin 2) * 1024 ≤ (i 0).val ∧ (i 0).val < win0_3.index tLast (0 : Fin 2) * 1024 + 1024; omega
      | ⟨1, _⟩ => show win0_3.index tLast (1 : Fin 2) * 1 ≤ (i 1).val ∧ (i 1).val < win0_3.index tLast (1 : Fin 2) * 1 + 1; omega⟩

/-- The sum over the output column's indices is the sum over its 1024 rows. -/
theorem sum_rows (f : Fin 1024 → EReal) : ∑ i : S1024x1.Idx, f (i 0) = ∑ b : Fin 1024, f b := by
  rw [sum_idx2 (fun i : (⟨2, ![1024, 1]⟩ : Shape).Idx => f (i 0))]
  refine Finset.sum_congr rfl fun b _ => ?_
  rw [Fin.sum_univ_one]

/-- The program's result: the loss of the three arrays the region finds. -/
theorem result_eq (c : Dev nD) :
    Pipeline.afterTail₀ cfgs (dats m) 0 (V0 m) [hostOps1] c main_v17
      = fun _ => meanLoss (xarr m c) (warr m c) (narr m c) := by
  unfold Pipeline.afterTail₀
  show StableHlo.after hostOps1 _ (Proc.devRef .tc main_v17) = _
  after_results
  have hout : Pipeline.withArrays (cfgs 0).spec c (V0 m c) (fun w => (dats m 0 c).arrAt w (cfgs 0).N)
      (Proc.devRef .tc main_v15) = outArr m c :=
    (Pipeline.withArrays_arr spec0 launch0.win.arr_inj c _ _ 3).trans (final_out m c)
  rw [hout]
  funext i
  show FloatOps.hostDivf (Host.reduceAdd (F := Ideal) (outArr m c) (constant (F := Ideal) S_ .f32 0x00000000#32) reducesTo_S1024x1_S_d0_1 h_S_ i)
    (constant (F := Ideal) S_ .f32 0x44800000#32 i) = _
  simp only [Host.reduceAdd, Ideal.hostReduceAdd_def]
  rw [Ideal.hostReduceAdd_total reducesTo_S1024x1_S_d0_1 (fun b => b.elim0) (outArr m c) _ i]
  unfold meanLoss outArr
  rw [sum_rows]
  rfl

/-- The run, read: the result at the loss of the three arrays the region finds, the arguments unchanged. -/
theorem run : θ_run defs (onTc (τ := τ) (main (F := Ideal))) ⟨m, fun _ => 0, ρ⟩ fun r => ∀ c : Dev nD,
      r.2.mem ((c.tc : Thread nD τ).loc main_v17) = (fun _ => meanLoss (xarr m c) (warr m c) (narr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.Head.lean ====
/-
  The arrays the region finds, as functions of the program's arguments.
  Before the region the kernel's program normalizes the inputs' rows, gathers each row's true-class embedding from the
  table and takes the inner products — the very host operations, in the very order, with which the reference
  computes the same two arrays. So the normalized inputs the region finds are the reference's stage `val_main_v4`
  of the first argument, and the column of true-class scores is the reference's stage `val_main_v15` of the three
  arguments; the table is the second argument, untouched. Neither chain of host operations is opened.
-/
import proofs.«122863_j48730698940765_1_alg».proof.Proof.Blocks
import proofs.«122863_j48730698940765_1_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.Head

open Cert.KernelIdeal Cert.KernelIdeal.Gen Cert.KernelIdeal.Blocks

variable {F : FTy → Type} [FloatOps F]
variable (m : (ℓ : Loc nD τ sig) → Buf (Elt F) ℓ)

/-- The table is the second argument. -/
theorem warr_eq (c : Dev nD) : warr m c = m ((c : Thread nD τ).loc main_arg1) := V_main_arg1 m c

/-- The normalized inputs are the reference's normalized inputs of the first argument. -/
theorem xarr_eq (c : Dev nD) :
    xarr m c = Cert.ReferenceIdeal.Read.val_main_v4 (F := F) (m ((c : Thread nD τ).loc main_arg0)) := by
  show V m c main_v4 = _
  dsimp only [V, V0]
  simp only [hostOps0, hostOps0_1, List.flatten_cons, List.flatten_nil, List.append_nil, List.cons_append, List.nil_append]
  after_results
  rfl

set_option maxHeartbeats 2000000 in
/-- The true-class scores are the reference's true-class scores of the three arguments. -/
theorem narr_eq (c : Dev nD) :
    narr m c = Cert.ReferenceIdeal.Read.val_main_v15 (F := F) (m ((c : Thread nD τ).loc main_arg0))
      (m ((c : Thread nD τ).loc main_arg1)) (m ((c : Thread nD τ).loc main_arg2)) := by
  show V m c main_v14 = _
  dsimp only [V, V0]
  simp only [hostOps0, hostOps0_1, List.flatten_cons, List.flatten_nil, List.append_nil, List.cons_append, List.nil_append]
  after_results_simp <;> rfl

end Cert.KernelIdeal.Head

end
-- ==== Proof.RefValue.lean ====
/-
  The reference's result, read at the ideal instance, is the margin-ranking loss `Cert.Spec.meanLoss` of three
  arrays it computes on the way: the normalized inputs (its stage `val_main_v4`), the embedding table (its second
  argument) and the column of true-class scores (its stage `val_main_v15`).
  Stage by stage: the whole matrix product reads at `(b, v)` as the inner product of row `b` of the normalized inputs
  with row `v` of the table; the margin is added first and the true-class score subtracted afterwards, which on
  the extended reals is the same as subtracting first (`Cert.Hinge.hinge_regroup`); the row sum and the sum over
  the rows are finite sums from the zero word; the quotient by the word of 1024 is the same on both sides.
-/
import proofs.«122863_j48730698940765_1_alg».proof.Proof.Gen.ReferenceIdeal.Read
import proofs.«122863_j48730698940765_1_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- A rank-1 index set of extent 1024 is its one coordinate. -/
def idxEquiv1 : (⟨1, ![1024]⟩ : Shape).Idx ≃ Fin 1024 where
  toFun j := j 0
  invFun b := ix1 b
  left_inv j := (eq_ix1 j).symm
  right_inv _ := rfl

/-- The hinge stage at `(b, k)`: the margin plus the inner product of row `b` of the normalized inputs with table
    row `k`, less row `b`'s true-class score, cut at zero; regrouped, it is the hinge of the score. -/
theorem elem_eq (x0 : (⟨S1024x512, .f32⟩ : BufTy).Contents (Elt Ideal)) (x1 : (⟨S128000x512, .f32⟩ : BufTy).Contents (Elt Ideal))
    (x2 : (⟨S1024, .i32⟩ : BufTy).Contents (Elt Ideal)) (b : Fin 1024) (k : Fin 128000) :
    val_main_v20 (F := Ideal) x0 x1 x2 (ix2 b k)
      = hinge (score (val_main_v4 (F := Ideal) x0) x1 b k) (val_main_v15 (F := Ideal) x0 x1 x2 (ix2 b 0)) := by
  rw [val_main_v20_apply, val_main_v19_apply, val_main_v17_apply, val_main_v16_apply, val_main_cst_2_apply,
    val_main_v5_apply, val_main_v18_apply, val_main_call1_v0_apply, val_main_call1_cst_apply]
  have e18 : idx_main_v18 (ix2 b k) = ix2 b (0 : Fin 1) :=
    funext fun a => Fin.ext (by match a with | ⟨0, _⟩ => rfl | ⟨1, _⟩ => rfl)
  have el : ∀ d : Fin 512, lidx_main_v5 (ix2 b k) d = ix2 b d := fun d =>
    funext fun a => Fin.ext (by match a with | ⟨0, _⟩ => rfl | ⟨1, _⟩ => rfl)
  have er : ∀ d : Fin 512, ridx_main_v5 (ix2 b k) d = ix2 k d := fun d =>
    funext fun a => Fin.ext (by match a with | ⟨0, _⟩ => rfl | ⟨1, _⟩ => rfl)
  rw [e18]
  simp only [el, er, Ideal.addf_def, Ideal.subf_def, Ideal.maximumf_def, Ideal.ofBits_def, Ideal.ofBits_zero_f32]
  unfold hinge score
  exact (Cert.Hinge.hinge_regroup _ _ _).symm

/-- Row `b` of the row-sum stage is row `b`'s loss: the sum starts from the zero word and runs over the 128000
    table rows, each term the hinge stage at `(b, k)`. -/
theorem row_eq (x0 : (⟨S1024x512, .f32⟩ : BufTy).Contents (Elt Ideal)) (x1 : (⟨S128000x512, .f32⟩ : BufTy).Contents (Elt Ideal))
    (x2 : (⟨S1024, .i32⟩ : BufTy).Contents (Elt Ideal)) (b : Fin 1024) :
    val_main_v21 (F := Ideal) x0 x1 x2 (ix1 b)
      = rowLoss (val_main_v4 (F := Ideal) x0) x1 (val_main_v15 (F := Ideal) x0 x1 x2) b := by
  rw [val_main_v21_apply, val_main_cst_3_apply, Ideal.ofBits_def, Ideal.ofBits_zero_f32, zero_add]
  unfold rowLoss
  refine Finset.sum_congr rfl fun k _ => ?_
  have e21 : idx_main_v21 (ix1 b) k = ix2 b k :=
    funext fun a => Fin.ext (by match a with | ⟨0, _⟩ => rfl | ⟨1, _⟩ => rfl)
  rw [e21]
  exact elem_eq x0 x1 x2 b k

/-- The reference's result is the loss of its own normalized inputs, the table and its own true-class scores. -/
theorem result_eq (x0 : (⟨S1024x512, .f32⟩ : BufTy).Contents (Elt Ideal)) (x1 : (⟨S128000x512, .f32⟩ : BufTy).Contents (Elt Ideal))
    (x2 : (⟨S1024, .i32⟩ : BufTy).Contents (Elt Ideal)) :
    val_main_v23 (F := Ideal) x0 x1 x2
      = fun _ => meanLoss (val_main_v4 (F := Ideal) x0) x1 (val_main_v15 (F := Ideal) x0 x1 x2) := by
  funext i
  rw [val_main_v23_apply, val_main_v22_apply, val_main_cst_4_apply, val_main_cst_5_apply,
    Ideal.hostDivf_def, Ideal.ofBits_def, Ideal.ofBits_def]
  unfold meanLoss
  refine congrArg (fun s => Ideal.div (Ideal.ofBits .f32 0x00000000#32 + s) (Ideal.ofBits .f32 0x44800000#32)) ?_
  exact Fintype.sum_equiv idxEquiv1 _ _ fun j =>
    (congrArg (val_main_v21 (F := Ideal) x0 x1 x2) (eq_ix1 j)).trans (row_eq x0 x1 x2 (j 0))

end Cert.ReferenceIdeal.RefValue

end
-- ==== Proof.lean ====
/-
  The certificate of the margin-ranking loss kernel against its jnp reference.

  Both programs normalize the inputs' rows, gather each row's true-class embedding and take the inner product with it
  (the same host operations on both sides), then for every input row `b` sum over the 128000 vocabulary rows `v` the
  hinge of the score `⟨x b, w v⟩` against the true-class score `n b`, and return the mean over the 1024 rows.
  The kernel walks the table in 100 tiles of 1280 rows, keeps a running column of row sums in a scratch buffer and
  copies it out after the last tile, and forms each hinge as `max ((s - n) + margin) 0`; the reference forms the whole
  1024 × 128000 score matrix at once and each hinge as `max ((margin + s) - n) 0`. Over the extended reals the two
  groupings of the hinge agree for all values (addition is commutative and associative there, infinities included),
  a sum over the rows of the table is the sum over the tiles of the tiles' sums, the two narrowings to bf16 are the
  identity and the matrix products are exact inner products: so both results are `Cert.Spec.meanLoss` of the same
  three arrays. The precondition (finite inputs) is not used.

  The three frames: the kernel's two programs by their generated frames; the reference's by its generated run with
  the result dropped. The ideal pass rewrote nothing, so `preserves` is `True`.
-/
import proofs.«122863_j48730698940765_1_alg».proof.Defs
import proofs.«122863_j48730698940765_1_alg».proof.Proof.Gen.Kernel
import proofs.«122863_j48730698940765_1_alg».proof.Proof.Gen.Kernel.Frame
import proofs.«122863_j48730698940765_1_alg».proof.Proof.Gen.KernelIdeal
import proofs.«122863_j48730698940765_1_alg».proof.Proof.Gen.KernelIdeal.Frame
import proofs.«122863_j48730698940765_1_alg».proof.Proof.Gen.ReferenceIdeal
import proofs.«122863_j48730698940765_1_alg».proof.Proof.Gen.ReferenceIdeal.Run
import proofs.«122863_j48730698940765_1_alg».proof.Proof.Gen.ReferenceIdeal.Read
import proofs.«122863_j48730698940765_1_alg».proof.Proof.Gen.Pre_finite_inputs
import proofs.«122863_j48730698940765_1_alg».proof.Proof.KValue
import proofs.«122863_j48730698940765_1_alg».proof.Proof.Head
import proofs.«122863_j48730698940765_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's program ends at the loss of the three arrays its region finds, the reference
    at the loss of its own three stages of arguments that agree; the arrays are those stages. -/
theorem algebraic : Cert.algebraic_KernelIdeal_ReferenceIdeal := by
  intro m ρ m' ρ' _ hagree
  refine ⟨fun c _ => Cert.Spec.meanLoss (Cert.KernelIdeal.Blocks.xarr m c) (Cert.KernelIdeal.Blocks.warr m c)
    (Cert.KernelIdeal.Blocks.narr m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1,
    (hagree c).2.2, ← Cert.KernelIdeal.Head.xarr_eq m c, ← Cert.KernelIdeal.Head.narr_eq m c,
    ← Cert.KernelIdeal.Head.warr_eq m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
